-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S1000x512 : Shape := ⟨2, ![1000, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_

variable [Facts]

def fn {F : FTy → Type} [FloatOps F] (main_arg0 : FVec F S8192x512 .f32) (main_arg1 : FVec F S1000x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  main_v8
-- ==== Kernel.lean ====
abbrev S8192x512 : Shape := ⟨2, ![8192, 512]⟩
abbrev S1000x512 : Shape := ⟨2, ![1000, 512]⟩
abbrev S8192x1000 : Shape := ⟨2, ![8192, 1000]⟩
abbrev S2048x512 : Shape := ⟨2, ![2048, 512]⟩
abbrev S2048x1000 : Shape := ⟨2, ![2048, 1000]⟩
abbrev S1x512 : Shape := ⟨2, ![1, 512]⟩
abbrev S512 : Shape := ⟨1, ![512]⟩
abbrev S1 : Shape := ⟨1, ![1]⟩
abbrev S1x1 : Shape := ⟨2, ![1, 1]⟩
abbrev S2048 : Shape := ⟨1, ![2048]⟩
abbrev S2048x1 : Shape := ⟨2, ![2048, 1]⟩
abbrev S1000 : Shape := ⟨1, ![1000]⟩
abbrev S1x1000 : Shape := ⟨2, ![1, 1000]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S1000x512, .f32⟩
  | .hbm, ⟨2, _⟩ => ⟨S8192x1000, .f32⟩
  | .local _ .vmem, ⟨0, _⟩ => ⟨S2048x512, .f32⟩
  | .local _ .vmem, ⟨1, _⟩ => ⟨S2048x512, .f32⟩
  | .local _ .vmem, ⟨2, _⟩ => ⟨S1000x512, .f32⟩
  | .local _ .vmem, ⟨3, _⟩ => ⟨S2048x1000, .f32⟩
  | .local _ .vmem, ⟨4, _⟩ => ⟨S2048x1000, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x512_S2048x512_0_0 : ∀ a, (![0, 0] : Fin 2 → Nat) a + S2048x512.size a ≤ S2048x512.size a
  h_S2048x512 : 0 < S2048x512.numel
  inb_S1000x512_S1000x512_0_0 : ∀ a, (![0, 0] : Fin 2 → Nat) a + S1000x512.size a ≤ S1000x512.size a
  h_S1000x512 : 0 < S1000x512.numel
  slices_S1000x512_o0_0_S1x512 : S1000x512.Slices ![0, 0] S1x512
  shapeCasts_S1x512_S512 : S1x512.ShapeCasts S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  reduces_S2048x512_S2048 : S2048x512.Reduces [1] S2048
  shapeCasts_S2048_S2048x1 : S2048.ShapeCasts S2048x1
  broadcasts_S2048x1_S2048x512 : S2048x1.Broadcasts S2048x512
  reduces_S1000x512_S1000 : S1000x512.Reduces [1] S1000
  bitsLt_bf16_f32 : FTy.bits .bf16 < FTy.bits .f32
  broadcasts_S2048x1_S2048x1000 : S2048x1.Broadcasts S2048x1000
  shapeCasts_S1000_S1x1000 : S1000.ShapeCasts S1x1000
  broadcasts_S1x1000_S2048x1000 : S1x1000.Broadcasts S2048x1000
  inb_S2048x1000_S2048x1000_0_0 : ∀ a, (![0, 0] : Fin 2 → Nat) a + S2048x1000.size a ≤ S2048x1000.size a
  h_S2048x1000 : 0 < S2048x1000.numel
  dot_S2048x512_S1000x512_S2048x1000_1_1_0_0_n_n_wf : DotDims.WF S2048x512 S1000x512 S2048x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S1000x512.size a
  hwx0_1 : ∀ i : grid0.Coords, EltTy.bits .f32 = 32 ∨ (Rect.block (s := S1000x512) S1000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1000.size a ≤ S8192x1000.size a
  hwx0_2 : ∀ i : grid0.Coords, EltTy.bits .f32 = 32 ∨ (Rect.block (s := S8192x1000) S2048x1000.size (cc0_transform_2 i) (hinb0_2 i)).WholeWords (EltTy.packing .f32)

variable [Facts₀]

def dot_S2048x512_S1000x512_S2048x1000_1_1_0_0_n_n : DotDims S2048x512 S1000x512 S2048x1000 where
  lhsContracting := [1]
  rhsContracting := [1]
  lhsNonContracting := [0]
  rhsNonContracting := [0]
  lhsBatch := []
  rhsBatch := []
  wf := dot_S2048x512_S1000x512_S2048x1000_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S1000x512 : Shape := ⟨2, ![1000, 512]⟩
abbrev S1x512 : Shape := ⟨2, ![1, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1000 : Shape := ⟨1, ![1000]⟩
abbrev S8192x1000 : Shape := ⟨2, ![8192, 1000]⟩
abbrev S1x1000 : Shape := ⟨2, ![1, 1000]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1000x512, .f32⟩
  | .hbm, ⟨2, _⟩ => ⟨S1x512, .f32⟩
  | .hbm, ⟨3, _⟩ => ⟨S512, .f32⟩
  | .hbm, ⟨4, _⟩ => ⟨S512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x512, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S1000x512, .f32⟩
  | .hbm, ⟨25, _⟩ => ⟨S_, .f32⟩
  | .hbm, ⟨26, _⟩ => ⟨S1000, .f32⟩
  | .hbm, ⟨27, _⟩ => ⟨S8192x1000, .f32⟩
  | .hbm, ⟨28, _⟩ => ⟨S_, .f32⟩
  | .hbm, ⟨29, _⟩ => ⟨S8192x1000, .f32⟩
  | .hbm, ⟨30, _⟩ => ⟨S8192x1000, .f32⟩
  | .hbm, ⟨31, _⟩ => ⟨S8192x1000, .f32⟩
  | .hbm, ⟨32, _⟩ => ⟨S8192x1000, .f32⟩
  | .hbm, ⟨33, _⟩ => ⟨S1x1000, .f32⟩
  | .hbm, ⟨34, _⟩ => ⟨S8192x1000, .f32⟩
  | .hbm, ⟨35, _⟩ => ⟨S8192x1000, .f32⟩
  | .hbm, ⟨36, _⟩ => ⟨S8192x1000, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  slices_S1000x512_S1x512_0_0 : S1000x512.Slices ![0, 0] S1x512
  shapeCasts_S1x512_S512 : S1x512.ShapeCasts S512
  reducesTo_S512_S_d0 : S512.ReducesTo [0] S_
  h_S_ : 0 < S_.numel
  reducesTo_S8192x512_S8192_d1 : S8192x512.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192x512 : S_.BroadcastsInDim S8192x512 (![] : Fin 0 → Fin S8192x512.rank)
  reducesTo_S1000x512_S1000_d1 : S1000x512.ReducesTo [1] S1000
  bcast_S_S8192x1000 : S_.BroadcastsInDim S8192x1000 (![] : Fin 0 → Fin S8192x1000.rank)
  bcast_S8192x1_S8192x1000_0_1 : S8192x1.BroadcastsInDim S8192x1000 (![0, 1] : Fin 2 → Fin S8192x1000.rank)
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  dot_S8192x512_S1000x512_S8192x1000_1_1_0_0_n_n_wf : DotDims.WF S8192x512 S1000x512 S8192x1000 [1] [1] [0] [0] [] []

variable [Facts₀]

def dot_S8192x512_S1000x512_S8192x1000_1_1_0_0_n_n : DotDims S8192x512 S1000x512 S8192x1000 where
  lhsContracting := [1]
  rhsContracting := [1]
  lhsNonContracting := [0]
  rhsNonContracting := [0]
  lhsBatch := []
  rhsBatch := []
  wf := dot_S8192x512_S1000x512_S8192x1000_1_1_0_0_n_n_wf

class Facts : Prop extends Facts₀ where

variable [Facts]
-- ==== Proof.Logits.lean ====
/-
  The value both programs compute, as one function of the two argument arrays.

  `x` is an array of rows of length 512 and `mu` holds 1000 class means of length 512. Write
  |a_r|² for the sum of the squares of row `r` of an array `a`. Every row of `x` is divided by its
  length plus a small guard and multiplied by the length of the FIRST class mean,
      s[r, k] = x[r, k] / (√|x_r|² + guard) · √|mu_0|²,
  and the logit of row `r` for class `c` is minus the squared distance from the rescaled row to the
  class mean, written out as
      logit[r, c] = -((∑ k, s[r, k]²) - 2 · (∑ k, s[r, k] · mu[c, k]) + |mu_c|²).
  All of it is read on the extended reals: the quotient, the square root, the sums and the products
  are the exact ones, and the two float constants are the numbers their words denote (the same
  words in both programs, so their values are never needed).

  The logit of row `r` looks at `x` only along row `r`; so it is the same number whether it is
  computed inside a block of rows or inside the whole array (`logit_congr`).
-/
import Idealize.ShloMosaic.PureOps.Ideal
import Idealize.ShloMosaic.PureOps.Ideal.Laws
import Idealize.ShloMosaic.Lib.ValueIdx

noncomputable section

open scoped BigOperators

namespace Cert.MeanLogits

open Idealize.ShloMosaic Idealize.ShloMosaic.ValueIdx

/-- The guard added to a row's length before dividing by it: the number the float word of `1e-10` denotes. -/
abbrev guard : EReal := Ideal.ofBits .f32 0x2EDBE6FF#32

/-- The factor of the cross term: the number the float word of `2.0` denotes. -/
abbrev two : EReal := Ideal.ofBits .f32 0x40000000#32

/-- The squared length of row `r`: the sum over the 512 columns of the entry times itself. -/
def sqLen {n : Nat} (a : (⟨2, ![n, 512]⟩ : Shape).Idx → EReal) (r : Fin n) : EReal :=
  ∑ k : Fin 512, a (ix2 r k) * a (ix2 r k)

/-- The common length every row is rescaled to: the length of the first class mean. -/
def radius (mu : (⟨2, ![1000, 512]⟩ : Shape).Idx → EReal) : EReal :=
  Ideal.sqrt (sqLen mu ⟨0, by decide⟩)

/-- Entry `(r, k)` of the rescaled rows: the entry over its row's guarded length, times the radius. -/
def scaled {n : Nat} (x : (⟨2, ![n, 512]⟩ : Shape).Idx → EReal) (mu : (⟨2, ![1000, 512]⟩ : Shape).Idx → EReal)
    (r : Fin n) (k : Fin 512) : EReal :=
  Ideal.div (x (ix2 r k)) (Ideal.sqrt (sqLen x r) + guard) * radius mu

/-- The logit of row `r` for class `c`: minus the expanded squared distance from the rescaled row to mean `c`. -/
def logit {n : Nat} (x : (⟨2, ![n, 512]⟩ : Shape).Idx → EReal) (mu : (⟨2, ![1000, 512]⟩ : Shape).Idx → EReal)
    (r : Fin n) (c : Fin 1000) : EReal :=
  -((∑ k : Fin 512, scaled x mu r k * scaled x mu r k)
      - two * (∑ k : Fin 512, scaled x mu r k * mu (ix2 c k)) + sqLen mu c)

/-- A row's logits depend on `x` through that row alone: two arrays (of any numbers of rows) that agree
    along a row of each give that row the same logits. -/
theorem logit_congr {n n' : Nat} (x : (⟨2, ![n, 512]⟩ : Shape).Idx → EReal) (x' : (⟨2, ![n', 512]⟩ : Shape).Idx → EReal)
    (mu : (⟨2, ![1000, 512]⟩ : Shape).Idx → EReal) (r : Fin n) (r' : Fin n') (c : Fin 1000)
    (h : ∀ k : Fin 512, x (ix2 r k) = x' (ix2 r' k)) : logit x mu r c = logit x' mu r' c := by
  have hs : sqLen x r = sqLen x' r' := Finset.sum_congr rfl fun k _ => by rw [h k]
  have hsc : ∀ k : Fin 512, scaled x mu r k = scaled x' mu r' k := fun k => by
    unfold scaled; rw [h k, hs]
  unfold logit
  simp only [hsc]

end Cert.MeanLogits

end
-- ==== Proof.LibRows.lean ====
/-
  Rows of a rank-2 array, read at an index: the keepdims column forms and the row sum.

  A sum over the rows' axis with the reduced axis kept (`sum(axis=1, keepdims=True)`) is spelt as a
  reduction of `[a, b]` to `[a]`, a cast of `[a]` to the column `[a, 1]`, and a broadcast of the column
  to `[a, b']`. Read at an index each step looks at one entry of its operand:
    * the cast of `[a]` to `[a, 1]` at `(i, u)` is the operand at `i` (whatever the unit coordinate `u`);
    * the broadcast of `[a, 1]` to `[a, b]` at `(p, c)` is the column at `(p, 0)`;
    * at the ideal instance the sum over axis 1 of an `[a, b]` array, at `r`, is `∑ k : Fin b, src[r, k]`
      (with `a = 1`: the sum of a one-row array's entries, at its one index).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Idealize.ShloMosaic.RowOps

open Idealize.ShloMosaic Idealize.ShloMosaic.ValueIdx

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal instance the sum over axis 1 of an `[a, b]` array, read at `r`, is the sum over the `b` columns of
    row `r`: the reduced index `r` with the column `k` put back on axis 1 is `(r, k)`. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext c; apply Fin.ext
  match c with
  | ⟨0, _⟩ => rfl
  | ⟨1, _⟩ => rfl

end Idealize.ShloMosaic.RowOps

end
-- ==== Proof.BodyLogits.lean ====
/-
  What the kernel body stores, read at an index, is the logit of `Logits.lean` over the body's block of rows.

  The body holds a block `xb` of 2048 rows of `x` and all of `mu`. It takes the first mean out (a
  slice of row 0, two casts), squares it, sums its 512 entries and takes the square root: the radius.
  It sums the squares of each row of the block along axis 1, keeps the sums as a column, takes the
  square root, adds the guard, broadcasts the column along the row, divides the block by it and
  multiplies by the radius: the rescaled rows. It sums the rescaled rows' squares per row, sums the
  means' squares per mean, multiplies the rescaled rows (narrowed to a 16-bit format, which changes
  nothing on the extended reals) into the means, contracting the 512 columns of both, into a zero
  accumulator, and stores `0 - ((a - 2·m) + b)`.

  Read at `(r, c)`: a sum along axis 1 is the sum over `k : Fin 512` of the entries of its row; the
  product into the zero accumulator is the sum of the products; the casts and broadcasts name the
  entry they read; and `0 - y = -y`.
-/
import proofs.«129713_j82858509075021_1_alg».proof.Proof.Gen.KernelIdeal.Skeleton
import proofs.«129713_j82858509075021_1_alg».proof.Proof.Logits
import proofs.«129713_j82858509075021_1_alg».proof.Proof.LibRows
import Idealize.ShloMosaic.Lib.ValueLayout

noncomputable section

open scoped BigOperators

namespace Cert.KernelIdeal.Body

open Cert.KernelIdeal Cert.KernelIdeal.Gen Idealize.ShloMosaic Idealize.ShloMosaic.ValueIdx Idealize.ShloMosaic.RowOps
open Cert.MeanLogits

/-! ## The product of the rescaled rows with the means -/

/-- The left operand's axis 0 is its free axis: its coordinate is the result's row. -/
theorem cross_lhs_0 (i : S2048x1000.Idx) (q : dot_S2048x512_S1000x512_S2048x1000_1_1_0_0_n_n.contr.Idx) :
    (dot_S2048x512_S1000x512_S2048x1000_1_1_0_0_n_n.lhsIdx i q 0).val = (i 0).val := by
  unfold DotDims.lhsIdx
  rw [dif_neg (show ¬(0 : Fin S2048x512.rank) ∈ dot_S2048x512_S1000x512_S2048x1000_1_1_0_0_n_n.lhsBatch by decide), dif_pos (show (0 : Fin S2048x512.rank) ∈ dot_S2048x512_S1000x512_S2048x1000_1_1_0_0_n_n.lhsNonContracting by decide)]
  rfl
/-- The left operand's axis 1 is the contracted one. -/
theorem cross_lhs_1 (i : S2048x1000.Idx) (q : dot_S2048x512_S1000x512_S2048x1000_1_1_0_0_n_n.contr.Idx) :
    (dot_S2048x512_S1000x512_S2048x1000_1_1_0_0_n_n.lhsIdx i q 1).val = (q ⟨0, by decide⟩).val :=
  dot_S2048x512_S1000x512_S2048x1000_1_1_0_0_n_n.lhsIdx_val_of_single rfl i q
/-- The right operand's axis 0 is its free axis: its coordinate is the result's column. -/
theorem cross_rhs_0 (i : S2048x1000.Idx) (q : dot_S2048x512_S1000x512_S2048x1000_1_1_0_0_n_n.contr.Idx) :
    (dot_S2048x512_S1000x512_S2048x1000_1_1_0_0_n_n.rhsIdx i q 0).val = (i 1).val := by
  unfold DotDims.rhsIdx
  rw [dif_neg (show ¬(0 : Fin S1000x512.rank) ∈ dot_S2048x512_S1000x512_S2048x1000_1_1_0_0_n_n.rhsBatch by decide), dif_pos (show (0 : Fin S1000x512.rank) ∈ dot_S2048x512_S1000x512_S2048x1000_1_1_0_0_n_n.rhsNonContracting by decide)]
  rfl
/-- The right operand's axis 1 is the contracted one. -/
theorem cross_rhs_1 (i : S2048x1000.Idx) (q : dot_S2048x512_S1000x512_S2048x1000_1_1_0_0_n_n.contr.Idx) :
    (dot_S2048x512_S1000x512_S2048x1000_1_1_0_0_n_n.rhsIdx i q 1).val = (q ⟨0, by decide⟩).val :=
  dot_S2048x512_S1000x512_S2048x1000_1_1_0_0_n_n.rhsIdx_val_of_single rfl i q

/-- The body's product into the zero accumulator, at `(r, c)`: the sum over the 512 columns of the left operand's
    row `r` times the right operand's row `c`. -/
theorem cross_apply {φ₁ φ₂ : FTy} (l : FVec Ideal S2048x512 φ₁) (m : FVec Ideal S1000x512 φ₂) (r : Fin 2048) (c : Fin 1000) :
    matmul dot_S2048x512_S1000x512_S2048x1000_1_1_0_0_n_n none l m (constant S2048x1000 .f32 0x00000000#32) (ix2 r c)
      = ∑ k : Fin 512, l (ix2 r k) * m (ix2 c k) := by
  simp only [matmul]
  rw [Ideal.matmul_constant_zero_apply, ← Equiv.sum_comp (ValueIdx.contrEquiv1 dot_S2048x512_S1000x512_S2048x1000_1_1_0_0_n_n 512 rfl rfl).symm]
  refine Finset.sum_congr rfl fun k _ => ?_
  have hk := ValueIdx.contrEquiv1_symm_val dot_S2048x512_S1000x512_S2048x1000_1_1_0_0_n_n 512 rfl rfl k
  have el : dot_S2048x512_S1000x512_S2048x1000_1_1_0_0_n_n.lhsIdx (ix2 r c) ((ValueIdx.contrEquiv1 dot_S2048x512_S1000x512_S2048x1000_1_1_0_0_n_n 512 rfl rfl).symm k) = ix2 r k := funext fun a => Fin.ext (by
    match a with
    | ⟨0, _⟩ => exact cross_lhs_0 _ _
    | ⟨1, _⟩ => exact (cross_lhs_1 _ _).trans hk)
  have er : dot_S2048x512_S1000x512_S2048x1000_1_1_0_0_n_n.rhsIdx (ix2 r c) ((ValueIdx.contrEquiv1 dot_S2048x512_S1000x512_S2048x1000_1_1_0_0_n_n 512 rfl rfl).symm k) = ix2 c k := funext fun a => Fin.ext (by
    match a with
    | ⟨0, _⟩ => exact cross_rhs_0 _ _
    | ⟨1, _⟩ => exact (cross_rhs_1 _ _).trans hk)
  rw [el, er]

/-! ## The radius -/

/-- The position `[0, 0]` of a `[1, 1]` array. -/
theorem pos00 (h : ∀ a, (![0, 0] : Fin 2 → Nat) a < S1x1.size a) :
    (fun a => ⟨(![0, 0] : Fin 2 → Nat) a, h a⟩ : S1x1.Idx) = ix2 (0 : Fin 1) (0 : Fin 1) := by
  funext a; apply Fin.ext
  match a with
  | ⟨0, _⟩ => rfl
  | ⟨1, _⟩ => rfl

/-- The first mean as the body takes it out — row 0 sliced off and cast to a vector — has entry `k` of row 0 at `k`. -/
theorem first_apply (v1 : FVec Ideal S1000x512 .f32) (hs : S1000x512.Slices ![0, 0] S1x512) (hc : S1x512.ShapeCasts S512) (k : Fin 512) :
    shapeCast S512 (extractStridedSlice S1x512 ![0, 0] v1 hs) hc (ix1 k) = v1 (ix2 (⟨0, by decide⟩ : Fin 1000) k) := by
  refine (shapeCast_1a_a_apply _ hc k).trans ?_
  refine extractStridedSlice_apply ![0, 0] v1 hs _ _ fun a => ?_
  match a with
  | ⟨0, _⟩ => rfl
  | ⟨1, _⟩ => show k.val = 0 + k.val; omega

/-- The scalar the body rescales by: the square root of the sum of the first mean's squares. -/
theorem radius_apply (v1 : FVec Ideal S1000x512 .f32) (hs : S1000x512.Slices ![0, 0] S1x512) (hc : S1x512.ShapeCasts S512)
    (hc' : S512.ShapeCasts S1x512) (hr : S1x512.Reduces [1] S1) (hφ : FKind.Formats .f32)
    (hacc : (0x00000000#32 : BitVec 32) = FKind.add.neutral .f32 hφ) (hc'' : S1.ShapeCasts S1x1)
    (hp : ∀ a, (![0, 0] : Fin 2 → Nat) a < S1x1.size a) :
    Scalar.sqrt (extractAt ![0, 0] (shapeCast S1x1 (multiReduction .add [1] S1 (shapeCast S1x512
        (mulf (shapeCast S512 (extractStridedSlice S1x512 ![0, 0] v1 hs) hc) (shapeCast S512 (extractStridedSlice S1x512 ![0, 0] v1 hs) hc))
        hc') 0x00000000#32 hr hφ hacc) hc'') hp)
      = radius v1 := by
  unfold extractAt
  rw [pos00]
  show Ideal.sqrt _ = Ideal.sqrt _
  refine congrArg Ideal.sqrt ?_
  refine (shapeCast_a_a1_apply _ hc'' (0 : Fin 1) (0 : Fin 1)).trans ?_
  refine (multiReduction_add_rows _ _ hr hφ hacc (0 : Fin 1)).trans ?_
  unfold sqLen
  refine Finset.sum_congr rfl fun k _ => ?_
  refine (shapeCast_a_1a_apply _ hc' (0 : Fin 1) k).trans ?_
  show shapeCast S512 (extractStridedSlice S1x512 ![0, 0] v1 hs) hc (ix1 k) * shapeCast S512 (extractStridedSlice S1x512 ![0, 0] v1 hs) hc (ix1 k) = _
  rw [first_apply]

/-! ## The rescaled rows -/

/-- A block divided by a column broadcast along the row and multiplied by a scalar, at `(r, k)`: the entry over the
    column's entry of row `r`, times the scalar. -/
theorem rescale_apply (xb : FVec Ideal S2048x512 .f32) (col : FVec Ideal S2048x1 .f32) (s : Ideal .f32)
    (hb : S2048x1.Broadcasts S2048x512) (r : Fin 2048) (k : Fin 512) :
    mulf (divf xb (broadcastTo S2048x512 col hb)) (broadcast S2048x512 s) (ix2 r k)
      = Ideal.div (xb (ix2 r k)) (col (ix2 r (0 : Fin 1))) * s := by
  show Ideal.div (xb (ix2 r k)) (broadcastTo S2048x512 col hb (ix2 r k)) * s = _
  rw [broadcastTo_a1_ab_apply]

/-- The divisor column at row `r`: the square root of the row's sum of squares, plus the guard. -/
theorem norm_apply (xb : FVec Ideal S2048x512 .f32) (hr : S2048x512.Reduces [1] S2048) (hφ : FKind.Formats .f32)
    (hacc : (0x00000000#32 : BitVec 32) = FKind.add.neutral .f32 hφ) (hc : S2048.ShapeCasts S2048x1) (r : Fin 2048) :
    addf (sqrt (shapeCast S2048x1 (multiReduction .add [1] S2048 (mulf xb xb) 0x00000000#32 hr hφ hacc) hc))
        (broadcast S2048x1 (Scalar.ofBits .f32 0x2EDBE6FF#32)) (ix2 r (0 : Fin 1))
      = Ideal.sqrt (sqLen xb r) + guard := by
  show Ideal.sqrt (shapeCast S2048x1 (multiReduction .add [1] S2048 (mulf xb xb) 0x00000000#32 hr hφ hacc) hc (ix2 r (0 : Fin 1))) + guard = _
  rw [shapeCast_a_a1_apply, multiReduction_add_rows]
  rfl

/-! ## The payload -/

/-- On the extended reals the float zero minus `y` is `-y`. -/
theorem zero_sub_eq (y : EReal) : Ideal.ofBits .f32 0x00000000#32 - y = -y := by
  rw [Ideal.ofBits_zero_f32, zero_sub]

/-- A block divided by its rows' guarded lengths and multiplied by the radius is the block's rescaled rows: from what
    the divisor column holds at row `r` (`hcol`) and what the scalar is (`hs`). -/
theorem scaled_of (v0 : FVec Ideal S2048x512 .f32) (v1 : FVec Ideal S1000x512 .f32) (col : FVec Ideal S2048x1 .f32) (s : Ideal .f32)
    (hb : S2048x1.Broadcasts S2048x512) (r : Fin 2048) (k : Fin 512)
    (hcol : col (ix2 r (0 : Fin 1)) = Ideal.sqrt (sqLen v0 r) + guard) (hs : s = radius v1) :
    mulf (divf v0 (broadcastTo S2048x512 col hb)) (broadcast S2048x512 s) (ix2 r k) = scaled v0 v1 r k := by
  rw [rescale_apply, hcol, hs]
  rfl

/-- What the body stores at `(r, c)` of its output block is the logit of the block's row `r` for class `c`. -/
theorem pay_apply (v0 : FVec Ideal S2048x512 .f32) (v1 : FVec Ideal S1000x512 .f32) (r : Fin 2048) (c : Fin 1000) :
    k0_pay1 (F := Ideal) v0 v1 (ix2 r c) = logit v0 v1 r c := by
  unfold k0_pay1
  refine (zero_sub_eq _).trans ?_
  unfold logit
  refine congrArg Neg.neg ?_
  refine congrArg₂ (· + ·) (congrArg₂ (· - ·) ?_ (congrArg (two * ·) ?_)) ?_
  · refine (broadcastTo_a1_ab_apply _ broadcasts_S2048x1_S2048x1000 r c).trans ?_
    refine (shapeCast_a_a1_apply _ shapeCasts_S2048_S2048x1 r (0 : Fin 1)).trans ?_
    refine (multiReduction_add_rows _ _ reduces_S2048x512_S2048 _ _ r).trans ?_
    refine Finset.sum_congr rfl fun k _ => ?_
    refine congrArg₂ (· * ·) ?_ ?_ <;>
      exact scaled_of v0 v1 _ _ _ r k (norm_apply v0 _ _ _ _ r) (radius_apply v1 _ _ _ _ _ _ _ _)
  · refine (cross_apply _ _ r c).trans ?_
    refine Finset.sum_congr rfl fun k _ => ?_
    refine congrArg₂ (· * ·) ?_ (truncf_apply (φ := .f32) (ψ := .bf16) v1 bitsLt_bf16_f32 (ix2 c k))
    refine (truncf_apply (φ := .f32) (ψ := .bf16) _ bitsLt_bf16_f32 (ix2 r k)).trans ?_
    exact scaled_of v0 v1 _ _ _ r k (norm_apply v0 _ _ _ _ r) (radius_apply v1 _ _ _ _ _ _ _ _)
  · refine (broadcastTo_1b_ab_apply _ broadcasts_S1x1000_S2048x1000 r c).trans ?_
    refine (shapeCast_a_1a_apply _ shapeCasts_S1000_S1x1000 (0 : Fin 1) c).trans ?_
    exact multiReduction_add_rows _ _ reduces_S1000x512_S1000 _ _ c

end Cert.KernelIdeal.Body

end
-- ==== Proof.KernelLogits.lean ====
/-
  The kernel's result array after the run is the array of logits.

  The grid has four points. Point `t` stages rows `2048·t … 2048·t + 2047` of `x` (all 512 columns),
  all of `mu`, and writes back rows `2048·t … 2048·t + 2047` of the result (all 1000 columns). What it
  writes at `(p, q)` of its block is the logit of the block's row `p` for class `q` (`BodyLogits.lean`);
  the block's row `p` IS row `2048·t + p` of `x`, and a row's logits look at `x` along that row only, so
  it is entry `(2048·t + p, q)` of the array of logits of the whole `x`. The four blocks cover all 8192
  rows (row `i` lies in the block of point `i / 2048`), so the array ends as the logits everywhere.
-/
import proofs.«129713_j82858509075021_1_alg».proof.Proof.Gen.KernelIdeal.Value
import proofs.«129713_j82858509075021_1_alg».proof.Proof.BodyLogits

noncomputable section

namespace Cert.KernelIdeal.Whole

open Cert.KernelIdeal Cert.KernelIdeal.Gen Idealize.ShloMosaic Idealize.ShloMosaic.TcCoe Idealize.SL.Sem
open Idealize.ShloMosaic.ValueIdx Cert.MeanLogits
open Idealize.ShloMosaic.Pipeline (Dat)

variable (m : (ℓ : Loc nD τ sig) → Buf (Elt Ideal) ℓ) (ρ : Dev nD → PrngReg)

/-- The body's accesses start at the origin of their buffers. -/
theorem origin : (![0, 0] : Fin 2 → Nat) = fun _ => 0 := funext fun a => by fin_cases a <;> rfl

/-- The array `x` as the region finds it. -/
abbrev xarr (c : Dev nD) : FVec Ideal S8192x512 .f32 := V m c main_arg0
/-- The class means as the region finds them. -/
abbrev muarr (c : Dev nD) : FVec Ideal S1000x512 .f32 := V m c main_arg1

/-- The array of logits of the argument arrays. -/
abbrev logits (c : Dev nD) : S8192x1000.Idx → Elt Ideal .f32 :=
  fun i => logit (xarr m c) (muarr m c) (i 0) (i 1)

/-- What the body stores at `y` of its block, when the staged block of `x` holds along row `y 0` what `x` holds
    along row `i 0`, the staged means are the means, and `y` and `i` name the same class: the logit at `i`. -/
theorem block_logit (x : FVec Ideal S8192x512 .f32) (mu : FVec Ideal S1000x512 .f32)
    (xb : FVec Ideal S2048x512 .f32) (mub : FVec Ideal S1000x512 .f32) (y : S2048x1000.Idx) (i : S8192x1000.Idx)
    (hx : ∀ k : Fin 512, xb (ix2 (y 0) k) = x (ix2 (i 0) k)) (hmu : mub = mu) (hcol : (y 1).val = (i 1).val) :
    k0_pay1 (F := Ideal) xb mub y = logit x mu (i 0) (i 1) := by
  obtain ⟨p, q, rfl⟩ : ∃ (p : Fin 2048) (q : Fin 1000), y = ix2 p q := ⟨y 0, y 1, eq_ix2 y⟩
  subst hmu
  rw [Body.pay_apply]
  have hq : q = i 1 := Fin.ext hcol
  rw [hq]
  exact logit_congr xb x mub p (i 0) (i 1) hx

/-- The printed index maps over the grid: point `t` stages and writes back row block `t`, column block 0; the means'
    one block is block `(0, 0)`. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- WHAT POINT `t` WRITES BACK is block `t` of the array of logits. -/
theorem flushed_eq (c : Dev nD) (t : Fin cfg0.N) :
    (dats m 0 c).flushed 2 t = ((cfg0.win 2).blk t).view.read (Elt Ideal) (logits m c) := by
  rw [Value.flushed2]
  unfold out0_2
  rw [View.canon_unit_zero origin]
  simp only [View.ld_unit_zero (S := S2048x512) origin, View.ld_unit_zero (S := S1000x512) origin]
  obtain ⟨e0, e1, e2, e3, e4, e5⟩ := idx_facts t
  funext j
  refine block_logit (xarr m c) (muarr m c) (iblk m c 0 t) (iblk m c 1 t) j (((cfg0.win 2).blk t).view.emb j) ?_ ?_ ?_
  · intro k
    show V m c main_arg0 (((cfg0.win 0).blk t).view.emb (ix2 (j 0) k)) = V m c main_arg0 (ix2 ((((cfg0.win 2).blk t).view.emb j) 0) k)
    refine congrArg (V m c main_arg0) (funext fun a => Fin.ext ?_)
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 512 + 1 * k.val = k.val; omega
  · funext y
    show V m c main_arg1 (((cfg0.win 1).blk t).view.emb y) = V m c main_arg1 y
    refine congrArg (V m c main_arg1) (funext fun a => Fin.ext ?_)
    match a with
    | ⟨0, _⟩ => show win0_1.index t (0 : Fin 2) * 1000 + 1 * (y 0).val = (y 0).val; omega
    | ⟨1, _⟩ => show win0_1.index t (1 : Fin 2) * 512 + 1 * (y 1).val = (y 1).val; omega
  · show (j 1).val = win0_2.index t (1 : Fin 2) * 1000 + 1 * (j 1).val
    omega

/-- An index of the array is in point `t`'s block iff each coordinate is in the block's range on its axis. -/
theorem mem_blk (t : Fin cfg0.N) (i : S8192x1000.Idx) :
    i ∈ ((cfg0.win 2).blk t).view.set ↔ ∀ a : Fin 2, win0_2.index t a * S2048x1000.size a ≤ (i a).val ∧ (i a).val < win0_2.index t a * S2048x1000.size a + S2048x1000.size a := by
  show i ∈ ((View.whole main_v0).slice (win0_2.rect t)).set ↔ _
  rw [View.set_slice_whole, Rect.mem_set_unit]
  exact Iff.rfl

/-- Every index of the result array lies in some point's block: row `i` in the block of point `i / 2048`. -/
theorem cover (i : S8192x1000.Idx) : ∃ t : Fin cfg0.N, (cfg0.win 2).flush t = true ∧ i ∈ ((cfg0.win 2).blk t).view.set := by
  have hi0 : (i 0).val < 8192 := (i 0).isLt
  have hi1 : (i 1).val < 1000 := (i 1).isLt
  refine ⟨⟨(i 0).val / 2048, by show (i 0).val / 2048 < 4; omega⟩, flush0_2 _, ?_⟩
  rw [mem_blk]
  obtain ⟨e0, e1, e2, e3, e4, e5⟩ := idx_facts ⟨(i 0).val / 2048, by show (i 0).val / 2048 < 4; omega⟩
  have e5' : win0_2.index ⟨(i 0).val / 2048, by show (i 0).val / 2048 < 4; omega⟩ (0 : Fin 2) = (i 0).val / 2048 := e5
  intro a
  match a with
  | ⟨0, _⟩ =>
    show win0_2.index _ (0 : Fin 2) * 2048 ≤ (i 0).val ∧ (i 0).val < win0_2.index _ (0 : Fin 2) * 2048 + 2048
    rw [e5']; omega
  | ⟨1, _⟩ =>
    show win0_2.index _ (1 : Fin 2) * 1000 ≤ (i 1).val ∧ (i 1).val < win0_2.index _ (1 : Fin 2) * 1000 + 1000
    rw [e4]; omega

/-- THE ARRAY after the run is the array of logits. -/
theorem final (c : Dev nD) : (dats m 0 c).arrAt 2 cfg0.N = logits m c :=
  (dats m 0 c).arrAt_eq_of_cover 2 (logits m c) (fun t _ => flushed_eq m c t) cover

/-- The run: every weakly fair execution ends with the result array at the logits of the argument arrays as launched,
    the arguments unchanged. -/
theorem run : θ_run defs (onTc (τ := τ) (main (F := Ideal))) ⟨m, fun _ => 0, ρ⟩ fun r => ∀ c : Dev nD,
      r.2.mem ((c : Thread nD τ).loc main_v0)
        = (fun i => logit (n := 8192) (m ((c : Thread nD τ).loc main_arg0)) (m ((c : Thread nD τ).loc main_arg1)) (i 0) (i 1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefLogits.lean ====
/-
  The reference program's result, read at an index, is the logit of `Logits.lean`.

  The reference computes, over the whole `[8192, 512]` array `x` and the `[1000, 512]` means `mu`: the
  length of the first mean (a slice, a reshape, a product, a sum over all 512 entries, a square
  root); every row's length plus the guard (a product, a sum along axis 1 kept as a column, a
  square root, the guard added, the column broadcast along the row); the quotient and the product
  that rescale the rows; the rescaled rows' squared lengths; the squared lengths of the means; the
  matrix product of the rescaled rows with the means, contracting the 512 columns of both; and
  minus the combination `a - 2·m + b`. Read at `(r, c)` through the generated one-operation-at-a-time
  reading of the run, each host sum is its initial value `0` plus a sum over `Fin 512` (the first
  mean's over the rank-1 index set, re-indexed by its coordinate), the host's product is the sum of
  the products, and the layout steps name the entry they read; what is left is the definition of
  `logit`, with `0 + s = s` for each of the four sums.
-/
import proofs.«129713_j82858509075021_1_alg».proof.Proof.Gen.ReferenceIdeal.Read
import proofs.«129713_j82858509075021_1_alg».proof.Proof.Logits

noncomputable section

open scoped BigOperators

namespace Cert.ReferenceIdeal.Whole

open Cert.ReferenceIdeal Cert.ReferenceIdeal.Gen Cert.ReferenceIdeal.Read Idealize.ShloMosaic Idealize.ShloMosaic.ValueIdx
open Cert.MeanLogits

variable (x : FVec Ideal S8192x512 .f32) (mu : FVec Ideal S1000x512 .f32)

/-! ## Which entry each chain of layout steps reads -/

/-- The row sum behind the norm column, read under the broadcast along the row: entry `(r, k')`. -/
theorem idx_norm (r : Fin 8192) (k k' : Fin 512) :
    idx_main_call0_v1 (idx_main_call0_v2 (idx_main_v8 (ix2 r k))) k' = ix2 r k' := by
  funext a; apply Fin.ext
  match a with
  | ⟨0, _⟩ => rfl
  | ⟨1, _⟩ => rfl

/-- The row sum of the rescaled rows' squares, read under the broadcast along the classes: entry `(r, k)`. -/
theorem idx_rowsq (r : Fin 8192) (c : Fin 1000) (k : Fin 512) :
    idx_main_v13 (idx_main_v14 (idx_main_v20 (ix2 r c))) k = ix2 r k := by
  funext a; apply Fin.ext
  match a with
  | ⟨0, _⟩ => rfl
  | ⟨1, _⟩ => rfl

/-- The means' squared lengths, read under the two broadcasts: entry `(c, k)`. -/
theorem idx_meansq (r : Fin 8192) (c : Fin 1000) (k : Fin 512) :
    idx_main_v16 (idx_main_v22 (idx_main_v23 (ix2 r c))) k = ix2 c k := by
  funext a; apply Fin.ext
  match a with
  | ⟨0, _⟩ => rfl
  | ⟨1, _⟩ => rfl

/-- The product's left operand at `(r, c)` and contraction coordinate `k`: entry `(r, k)`. -/
theorem idx_left (r : Fin 8192) (c : Fin 1000) (k : Fin 512) : lidx_main_v17 (ix2 r c) k = ix2 r k := by
  funext a; apply Fin.ext
  match a with
  | ⟨0, _⟩ => rfl
  | ⟨1, _⟩ => rfl

/-- The product's right operand at `(r, c)` and contraction coordinate `k`: entry `(c, k)`. -/
theorem idx_right (r : Fin 8192) (c : Fin 1000) (k : Fin 512) : ridx_main_v17 (ix2 r c) k = ix2 c k := by
  funext a; apply Fin.ext
  match a with
  | ⟨0, _⟩ => rfl
  | ⟨1, _⟩ => rfl

/-! ## The first mean's length -/

/-- The rank-1 index set of extent 512 is its coordinate's range. -/
def idx512 : S512.Idx ≃ Fin 512 where
  toFun j := j 0
  invFun k := ix1 k
  left_inv j := (eq_ix1 j).symm
  right_inv _ := rfl

/-- The slice and reshape that take the first mean out read, at `j`, entry `(0, j)` of the means. -/
theorem idx_first (j : S512.Idx) : idx_main_v0 (idx_main_v1 j) = ix2 (⟨0, by decide⟩ : Fin 1000) (idx512 j) := by
  funext a; apply Fin.ext
  match a with
  | ⟨0, _⟩ => rfl
  | ⟨1, _⟩ => exact Nat.mod_eq_of_lt (j 0).isLt

/-- The scalar the rows are rescaled by is the first mean's length. -/
theorem radius_eq (i : S_.Idx) : val_main_v4 (F := Ideal) mu i = radius mu := by
  rw [val_main_v4_apply, val_main_v3_apply]
  show Ideal.sqrt (Ideal.ofBits .f32 0x00000000#32 + ∑ j : S512.Idx, val_main_v2 (F := Ideal) mu j) = _
  rw [Ideal.ofBits_zero_f32, zero_add]
  unfold radius sqLen
  refine congrArg Ideal.sqrt (Fintype.sum_equiv idx512 _ _ fun j => ?_)
  rw [val_main_v2_apply, val_main_v1_apply, val_main_v0_apply, idx_first]
  rfl

/-! ## The rescaled rows -/

/-- The divisor of row `r`, read anywhere along the row: the row's length plus the guard. -/
theorem norm_eq (r : Fin 8192) (k : Fin 512) :
    val_main_v8 (F := Ideal) x (ix2 r k) = Ideal.sqrt (sqLen x r) + guard := by
  rw [val_main_v8_apply, val_main_v7_apply, val_main_v5_apply, val_main_call0_v2_apply, val_main_call0_v1_apply,
    val_main_v6_apply]
  show Ideal.sqrt (Ideal.ofBits .f32 0x00000000#32 + ∑ k' : Fin 512, val_main_call0_v0 (F := Ideal) x
      (idx_main_call0_v1 (idx_main_call0_v2 (idx_main_v8 (ix2 r k))) k')) + guard = _
  rw [Ideal.ofBits_zero_f32, zero_add]
  simp only [idx_norm]
  rfl

/-- The rescaled rows at `(r, k)`. -/
theorem scaled_eq (r : Fin 8192) (k : Fin 512) : val_main_v11 (F := Ideal) x mu (ix2 r k) = scaled x mu r k := by
  rw [val_main_v11_apply, val_main_v9_apply, val_main_v10_apply, norm_eq, radius_eq]
  rfl

/-! ## The result -/

/-- The reference's result at `(r, c)` is the logit of row `r` for class `c`. -/
theorem result_apply (r : Fin 8192) (c : Fin 1000) :
    val_main_v25 (F := Ideal) x mu (ix2 r c) = logit x mu r c := by
  rw [val_main_v25_apply, val_main_v24_apply, val_main_v21_apply, val_main_v19_apply, val_main_v18_apply,
    val_main_v20_apply, val_main_v14_apply, val_main_v13_apply, val_main_v17_apply,
    val_main_v23_apply, val_main_v22_apply, val_main_v16_apply]
  simp only [idx_rowsq, idx_meansq, idx_left, idx_right, val_main_v12_apply, val_main_v15_apply, scaled_eq]
  show -(Ideal.ofBits .f32 0x00000000#32 + (∑ k : Fin 512, scaled x mu r k * scaled x mu r k)
        - two * (∑ k : Fin 512, scaled x mu r k * mu (ix2 c k))
      + (Ideal.ofBits .f32 0x00000000#32 + ∑ k : Fin 512, mu (ix2 c k) * mu (ix2 c k))) = _
  rw [Ideal.ofBits_zero_f32, zero_add, zero_add]
  rfl

/-- So the reference's result array is the array of logits. -/
theorem result_eq : val_main_v25 (F := Ideal) x mu = fun i => logit x mu (i 0) (i 1) := by
  funext i
  obtain ⟨r, c, rfl⟩ : ∃ (r : Fin 8192) (c : Fin 1000), i = ix2 r c := ⟨i 0, i 1, eq_ix2 i⟩
  exact result_apply x mu r c

end Cert.ReferenceIdeal.Whole

end
-- ==== Proof.lean ====
/-
  Minus the squared distance from each rescaled row to each class mean, in two programs.

  Both programs take `x : f32[8192, 512]` and `mu : f32[1000, 512]`, divide every row of `x` by its
  length plus a guard, multiply by the length of the first class mean, and return, for row `r` and
  class `c`, `-(|s_r|² - 2·(s_r · mu_c) + |mu_c|²)` with `s` the rescaled rows. The kernel does it block
  by block, 2048 rows at a grid point, with the matrix product fed operands narrowed to a 16-bit
  format and accumulated into zero; the reference does it once over the whole arrays with the
  host's sums and general dot product. On the extended reals a narrowing is the identity, a sum
  along an axis is the same sum in either spelling, and both products are the sum of the products
  over the 512 columns; the only law needed is `0 + s = s` and `0 - y = -y`, so the finiteness of
  the inputs is never used.

  `Logits.lean` states the common value `logit`; `RefLogits.lean` reads the reference's run at an
  index and finds `logit` of the whole arrays; `BodyLogits.lean` reads what the kernel body stores and
  finds `logit` of the staged block; `KernelLogits.lean` puts the four blocks together (a row's logits
  look at `x` along that row only). The three frames are the programs' runs with the values dropped;
  the idealization rewrote nothing, so `preserves` has nothing to say.
-/
import proofs.«129713_j82858509075021_1_alg».proof.Defs
import proofs.«129713_j82858509075021_1_alg».proof.Proof.Gen.Kernel
import proofs.«129713_j82858509075021_1_alg».proof.Proof.Gen.Kernel.Skeleton
import proofs.«129713_j82858509075021_1_alg».proof.Proof.Gen.Kernel.Launch
import proofs.«129713_j82858509075021_1_alg».proof.Proof.Gen.Kernel.Points
import proofs.«129713_j82858509075021_1_alg».proof.Proof.Gen.Kernel.Frame
import proofs.«129713_j82858509075021_1_alg».proof.Proof.Gen.KernelIdeal
import proofs.«129713_j82858509075021_1_alg».proof.Proof.Gen.KernelIdeal.Skeleton
import proofs.«129713_j82858509075021_1_alg».proof.Proof.Gen.KernelIdeal.Launch
import proofs.«129713_j82858509075021_1_alg».proof.Proof.Gen.KernelIdeal.Points
import proofs.«129713_j82858509075021_1_alg».proof.Proof.Gen.KernelIdeal.Frame
import proofs.«129713_j82858509075021_1_alg».proof.Proof.Gen.KernelIdeal.Value
import proofs.«129713_j82858509075021_1_alg».proof.Proof.Gen.ReferenceIdeal
import proofs.«129713_j82858509075021_1_alg».proof.Proof.Gen.ReferenceIdeal.Run
import proofs.«129713_j82858509075021_1_alg».proof.Proof.Gen.ReferenceIdeal.Read
import proofs.«129713_j82858509075021_1_alg».proof.Proof.Gen.Pre_finite_inputs
import proofs.«129713_j82858509075021_1_alg».proof.Proof.KernelLogits
import proofs.«129713_j82858509075021_1_alg».proof.Proof.RefLogits
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array is the array of logits of its arguments, and the reference's
    result is the same function of its own: one array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.Whole.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
